-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S4096x16 .f32) (main_arg4 : FVec F S16x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S16384x4096 : Shape := ⟨2, ![16384, 4096]⟩
abbrev S1x4096 : Shape := ⟨2, ![1, 4096]⟩
abbrev S512x4096 : Shape := ⟨2, ![512, 4096]⟩
abbrev S1024x4096 : Shape := ⟨2, ![1024, 4096]⟩
abbrev S16x1024 : Shape := ⟨2, ![16, 1024]⟩
abbrev S1x1024 : Shape := ⟨2, ![1, 1024]⟩
abbrev S512x1024 : Shape := ⟨2, ![512, 1024]⟩
abbrev S512x16 : Shape := ⟨2, ![512, 16]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S16384x4096, .f32⟩
  | .hbm, ⟨6, _⟩ => ⟨S16384x4096, .bf16⟩
  | .hbm, ⟨7, _⟩ => ⟨S4096x4096, .bf16⟩
  | .hbm, ⟨8, _⟩ => ⟨S4096x16, .bf16⟩
  | .hbm, ⟨9, _⟩ => ⟨S16x4096, .bf16⟩
  | .hbm, ⟨10, _⟩ => ⟨S1x4096, .f32⟩
  | .hbm, ⟨11, _⟩ => ⟨S16384x4096, .f32⟩
  | .hbm, ⟨12, _⟩ => ⟨S8x2048x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S4096x16, .bf16⟩
  | .local _ .vmem, ⟨5, _⟩ => ⟨S16x1024, .bf16⟩
  | .local _ .vmem, ⟨6, _⟩ => ⟨S16x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x2048x4096_S16384x4096 : S8x2048x4096.ShapeCasts S16384x4096
  bitsLt_bf16_f32 : FTy.bits .bf16 < FTy.bits .f32
  shapeCasts_S4096_S1x4096 : S4096.ShapeCasts S1x4096
  shapeCasts_S16384x4096_S8x2048x4096 : S16384x4096.ShapeCasts S8x2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  dot_S512x4096_S4096x16_S512x16_1_0_0_1_n_n_wf : DotDims.WF S512x4096 S4096x16 S512x16 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .bf16 = 32 ∨ (Rect.block (s := S16384x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .bf16 = 32 ∨ (Rect.block (s := S4096x16) S4096x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x4096.size a
  hwx0_5 : ∀ i : grid0.Coords, EltTy.bits .f32 = 32 ∨ (Rect.block (s := S16384x4096) S512x1024.size (cc0_transform_5 i) (hinb0_5 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf
def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_call0_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S4096x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S8x2048x16 : Shape := ⟨3, ![8, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8x2048x4096, .f32⟩
  | .hbm, ⟨6, _⟩ => ⟨S1x1x4096, .f32⟩
  | .hbm, ⟨7, _⟩ => ⟨S8x2048x4096, .f32⟩
  | .hbm, ⟨8, _⟩ => ⟨S8x2048x4096, .f32⟩
  | .hbm, ⟨9, _⟩ => ⟨S8x2048x16, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x4096_S4096x4096_S8x2048x4096_2_1_01_0_n_n_wf : DotDims.WF S8x2048x4096 S4096x4096 S8x2048x4096 [2] [1] [0, 1] [0] [] []
  dot_S8x2048x4096_S4096x16_S8x2048x16_2_0_01_1_n_n_wf : DotDims.WF S8x2048x4096 S4096x16 S8x2048x16 [2] [0] [0, 1] [1] [] []
  dot_S8x2048x16_S16x4096_S8x2048x4096_2_0_01_1_n_n_wf : DotDims.WF S8x2048x16 S16x4096 S8x2048x4096 [2] [0] [0, 1] [1] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def dot_S8x2048x4096_S4096x16_S8x2048x16_2_0_01_1_n_n : DotDims S8x2048x4096 S4096x16 S8x2048x16 where
  lhsContracting := [2]
  rhsContracting := [0]
  lhsNonContracting := [0, 1]
  rhsNonContracting := [1]
  lhsBatch := []
  rhsBatch := []
  wf := dot_S8x2048x4096_S4096x16_S8x2048x16_2_0_01_1_n_n_wf
def dot_S8x2048x16_S16x4096_S8x2048x4096_2_0_01_1_n_n : DotDims S8x2048x16 S16x4096 S8x2048x4096 where
  lhsContracting := [2]
  rhsContracting := [0]
  lhsNonContracting := [0, 1]
  rhsNonContracting := [1]
  lhsBatch := []
  rhsBatch := []
  wf := dot_S8x2048x16_S16x4096_S8x2048x4096_2_0_01_1_n_n_wf

class Facts : Prop extends Facts₀ where

variable [Facts]
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibRowRowDot.lean ====
/-
  A matrix product that contracts the SECOND axis of both operands, read at an entry.

  For the dimension numbers that contract axis 1 of an M × K matrix against axis 1 of an N × K matrix (the product of
  the left operand with the right operand's transpose, no batch axis) the sum over the product's contraction index is
  the sum over `k : Fin K` of `l (a, k) · r (b, k)`. Stated for ANY record with those dimension numbers, whatever the
  three extents; the forms for a `tpu.matmul` into a zero accumulator and for the host's `dot_general` at the ideal
  values follow.
-/
import Idealize.ShloMosaic.PureOps.Ideal.Laws
import Idealize.ShloMosaic.Lib.ValueIdx

noncomputable section

namespace Cert.LibRowRowDot

open Idealize.ShloMosaic Idealize.ShloMosaic.ValueIdx

variable {M K N : Nat}

/-- The sum over the contraction index is the sum over `k : Fin K` of `l (a, k) * r (b, k)`: each operand keeps its
    first axis (the result's row for the left one, the result's column for the right one) and runs its second. -/
theorem dot_sum (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal) (a : Fin M) (b : Fin N) :
    ∑ k : d.contr.Idx, l (d.lhsIdx (ix2 a b) k) * r (d.rhsIdx (ix2 a b) k) = ∑ k : Fin K, l (ix2 a k) * r (ix2 b k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  -- the left operand's kept axis (its first) reads the result's row index
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  -- the right operand's kept axis (its first) reads the result's column index
  have r0 : ∀ q : d.contr.Idx, (d.rhsIdx (ix2 a b) q 0).val = b.val := by
    subst hd; intro q
    unfold DotDims.rhsIdx
    rw [dif_neg (show ¬ (0 : Fin 2) ∈ ([] : List (Fin 2)) from List.not_mem_nil),
      dif_pos (show (0 : Fin 2) ∈ ([0] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 b k := funext fun ax => Fin.ext (by
    match ax with
    | ⟨0, _⟩ => exact r0 _
    | ⟨1, _⟩ => exact (d.rhsIdx_val_of_single hrc _ _).trans hk)
  rw [el, er]

/-- A `tpu.matmul` of those dimension numbers into the zero accumulator, at the ideal values, at entry (a, b). -/
theorem matmul_zero_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ k : Fin K, l (ix2 a k) * r (ix2 b k) :=
  (Ideal.matmul_constant_zero_apply d prec l r (ix2 a b)).trans (dot_sum d hlc hrc hln hrn hlb hrb l r a b)

/-- The host's `dot_general` of those dimension numbers, at the ideal values, at entry (a, b). -/
theorem dotGeneral_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (sched : HostSchedule)
    (l : FVec Ideal ⟨2, ![M, K]⟩ φ₁) (r : FVec Ideal ⟨2, ![N, K]⟩ φ₂) (a : Fin M) (b : Fin N) :
    FloatOps.dotGeneral d prec sched l r (ix2 a b) = ∑ k : Fin K, l (ix2 a k) * r (ix2 b k) :=
  (Ideal.dotGeneral_apply d prec sched l r (ix2 a b)).trans (dot_sum d hlc hrc hln hrn hlb hrb l r a b)

end Cert.LibRowRowDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.Spec.lean ====
/-
  The result of the low-rank-adapted linear layer, as one function of the five argument arrays.

  For an activation x of shape [8, 2048, 4096], a weight W of shape [4096, 4096] (one row per output feature), a bias b of
  length 4096 and the two low-rank factors A [4096, 16] and B [16, 4096], entry (n, s, o) of the result is

      (Σ_k x(n, s, k) · W(o, k)  +  b(o))  +  16 · Σ_r (Σ_k x(n, s, k) · A(k, r)) · B(r, o),

  on the extended reals, with the sums grouped exactly so: the base product plus the bias first, then the scaled product
  through the rank-16 bottleneck. Both programs compute the entries in this grouping, so no law of the extended reals beyond
  reading each operation at an entry is needed to join them.
-/
import Idealize.ShloMosaic.PureOps.Ideal
import Idealize.ShloMosaic.Lib.ValueIdx

noncomputable section

namespace Cert.LoraSpec

open Idealize.ShloMosaic Idealize.ShloMosaic.ValueIdx

/-- The scale of the low-rank branch: the f32 word of 16.0, read at the ideal values. -/
abbrev alpha : EReal := FloatOps.ofBits (F := Ideal) .f32 0x41800000#32

/-- One entry of the layer's result from one activation row `xr`, one bias entry `bo`, the weight row `wr` of the output
    feature, the factor `A` and the column `bc` of the factor `B` of that feature. -/
def entry (xr : Fin 4096 → EReal) (wr : Fin 4096 → EReal) (bo : EReal) (A : Fin 4096 → Fin 16 → EReal) (bc : Fin 16 → EReal) : EReal :=
  ((∑ k : Fin 4096, xr k * wr k) + bo) + alpha * ∑ r : Fin 16, (∑ k : Fin 4096, xr k * A k r) * bc r

/-- The whole result, entry (n, s, o), of the argument arrays. -/
def out (x : (⟨3, ![8, 2048, 4096]⟩ : Shape).Idx → EReal) (W : (⟨2, ![4096, 4096]⟩ : Shape).Idx → EReal)
    (b : (⟨1, ![4096]⟩ : Shape).Idx → EReal) (A : (⟨2, ![4096, 16]⟩ : Shape).Idx → EReal)
    (B : (⟨2, ![16, 4096]⟩ : Shape).Idx → EReal) : (⟨3, ![8, 2048, 4096]⟩ : Shape).Idx → EReal :=
  fun i => entry (fun k => x (ix3 (i 0) (i 1) k)) (fun k => W (ix2 (i 2) k)) (b (ix1 (i 2)))
    (fun k r => A (ix2 k r)) (fun r => B (ix2 r (i 2)))

end Cert.LoraSpec

end
-- ==== Proof.Payload.lean ====
/-
  The kernel body's stored tile, entry by entry.

  At a grid point the body holds a 512-row tile `x` of the flattened activation, a 1024-row tile `w` of the weight, the whole
  factor `a`, a 1024-column tile `bm` of the factor B and the matching 1024 bias entries. It stores
  (x · wᵀ + bias) + 16 · ((x · a) · bm): entry (p, q) is `LoraSpec.entry` of row p of x, row q of w, bias entry q, the factor a
  and column q of bm. The three products are matrix products into a zero accumulator, so each is the plain sum over its
  contracted axis; the format changes in between are the identity at the ideal values.
-/
import proofs.«164390_j14491219657132_1_alg».proof.Proof.Gen.KernelIdeal.Skeleton
import proofs.«164390_j14491219657132_1_alg».proof.Proof.LibPlainDot
import proofs.«164390_j14491219657132_1_alg».proof.Proof.LibRowRowDot
import proofs.«164390_j14491219657132_1_alg».proof.Proof.LibRowBroadcast
import proofs.«164390_j14491219657132_1_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- Entry (p, q) of the stored tile. -/
theorem pay_apply (x : Vec Ideal S512x4096 .bf16) (w : Vec Ideal S1024x4096 .bf16) (a : Vec Ideal S4096x16 .bf16)
    (bm : Vec Ideal S16x1024 .bf16) (bias : Vec Ideal S1x1024 .f32) (p : Fin 512) (q : Fin 1024) :
    k0_pay1 (F := Ideal) x w a bm bias (ix2 p q)
      = Cert.LoraSpec.entry (fun k => x (ix2 p k)) (fun k => w (ix2 q k)) (bias (ix2 (0 : Fin 1) q))
          (fun k r => a (ix2 k r)) (fun r => bm (ix2 r q)) := by
  unfold k0_pay1 Cert.LoraSpec.entry
  simp only [shapeCast_self, matmul]
  rw [addf_apply, addf_apply, mulf_apply, broadcast_apply,
    Cert.LibRowRowDot.matmul_zero_apply _ rfl rfl rfl rfl rfl rfl,
    Cert.LibPlainDot.matmul_zero_apply _ rfl rfl rfl rfl rfl rfl,
    Idealize.ShloMosaic.RowBroadcast.broadcastTo_row]
  simp only [truncf_apply,
    Cert.LibPlainDot.matmul_zero_apply dot_S512x4096_S4096x16_S512x16_1_0_0_1_n_n rfl rfl rfl rfl rfl rfl]

end Cert.KernelIdeal.Tile

end
-- ==== Proof.KernelValue.lean ====
/-
  What the kernel program leaves in its result array.

  Before the region the program flattens the activation [8, 2048, 4096] to [16384, 4096] (row n · 2048 + s), changes the
  format of the activation, the weight and both factors (the identity at the ideal values) and lays the bias out as one row
  [1, 4096]. The region's 4 × 32 grid has the column tile as its outer coordinate and the row tile as its inner one: at
  point (j, i) it reads rows 512 i … 512 i + 511 of the flattened activation, rows 1024 j … 1024 j + 1023 of the weight, the
  whole factor A, columns 1024 j … of the factor B and of the bias row, and writes tile (i, j) of the flattened result.
  Entry (p, q) of what it writes is the layer's entry for row 512 i + p and output feature 1024 j + q, so every tile is a
  restriction of ONE function `flat` of the arrays the region finds; the 128 tiles cover the flattened result, which
  therefore is `flat`. After the region the result is reshaped to [8, 2048, 4096]: entry (n, s, o) reads `flat` at
  (n · 2048 + s, o), whose activation row is row (n, s) of the original activation — the layer's function `LoraSpec.out`.
-/
import proofs.«164390_j14491219657132_1_alg».proof.Proof.Gen.KernelIdeal.Frame
import proofs.«164390_j14491219657132_1_alg».proof.Proof.Payload
import proofs.«164390_j14491219657132_1_alg».proof.Proof.Spec
import Idealize.ShloMosaic.Lib.Pipeline.Value
import Idealize.ShloMosaic.Lib.ValueIdx

noncomputable section

namespace Cert.KernelIdeal.WholeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds -/

/-- The five arrays the region stages, as it finds them: the flattened activation, the weight, the factors A and B, and the
    bias laid out as one row. -/
abbrev xarr (c : Dev nD) : Vec Ideal S16384x4096 .bf16 := V m c main_call0_v1
abbrev warr (c : Dev nD) : Vec Ideal S4096x4096 .bf16 := V m c main_call0_v2
abbrev aarr (c : Dev nD) : Vec Ideal S4096x16 .bf16 := V m c main_call0_v3
abbrev barr (c : Dev nD) : Vec Ideal S16x4096 .bf16 := V m c main_call0_v4
abbrev biasarr (c : Dev nD) : Vec Ideal S1x4096 .f32 := V m c main_call0_v5

/-- The flattened activation is the argument reshaped (the format change is the identity at the ideal values). -/
theorem xarr_eq (c : Dev nD) : xarr m c = fun i => shapeCast S16384x4096 (m ((c : Thread nD τ).loc main_arg0)) shapeCasts_S8x2048x4096_S16384x4096 i := by
  show StableHlo.after hostOps0 (fun b => m (c, b)) (Proc.devRef .tc main_call0_v1) = _
  after_results
  rfl

/-- The weight the region finds is the argument. -/
theorem warr_eq (c : Dev nD) : warr m c = fun i => m ((c : Thread nD τ).loc main_arg1) i := by
  show StableHlo.after hostOps0 (fun b => m (c, b)) (Proc.devRef .tc main_call0_v2) = _
  after_results
  rfl

/-- The factor A the region finds is the argument. -/
theorem aarr_eq (c : Dev nD) : aarr m c = fun i => m ((c : Thread nD τ).loc main_arg3) i := by
  show StableHlo.after hostOps0 (fun b => m (c, b)) (Proc.devRef .tc main_call0_v3) = _
  after_results
  rfl

/-- The factor B the region finds is the argument. -/
theorem barr_eq (c : Dev nD) : barr m c = fun i => m ((c : Thread nD τ).loc main_arg4) i := by
  show StableHlo.after hostOps0 (fun b => m (c, b)) (Proc.devRef .tc main_call0_v4) = _
  after_results
  rfl

/-- The bias row is the bias argument reshaped to one row. -/
theorem biasarr_eq (c : Dev nD) : biasarr m c = shapeCast S1x4096 (m ((c : Thread nD τ).loc main_arg2)) shapeCasts_S4096_S1x4096 := by
  show StableHlo.after hostOps0 (fun b => m (c, b)) (Proc.devRef .tc main_call0_v5) = _
  after_results
  rfl

/-! ## The flattened result -/

/-- The region's output array as one function of the arrays it finds: entry (R, o) is the layer's entry from row R of the
    flattened activation, row o of the weight, bias entry o, the factor A and column o of the factor B. -/
def flat (c : Dev nD) : Vec Ideal S16384x4096 .f32 := fun i =>
  Cert.LoraSpec.entry (fun k => xarr m c (ix2 (i 0) k)) (fun k => warr m c (ix2 (i 1) k)) (biasarr m c (ix2 (0 : Fin 1) (i 1)))
    (fun k r => aarr m c (ix2 k r)) (fun r => barr m c (ix2 r (i 1)))

/-- The body's loads and its store all start at the origin of their tiles. -/
theorem hz : (![0, 0] : Fin 2 → Nat) = fun _ => 0 := funext fun a => by fin_cases a <;> rfl

/-- Where each window's block sits, relative to the output tile (i, j): the activation's block is row block i, the weight's
    row block j, the factor A is one block, the factor B's and the bias row's blocks are column block j; and i ≤ 31, j ≤ 3.
    Decided over the 128 points. -/
theorem idx_facts : ∀ t : Fin cfg0.N, win0_0.index t (0 : Fin 2) = win0_5.index t (0 : Fin 2)
    ∧ win0_0.index t (1 : Fin 2) = 0
    ∧ win0_1.index t (0 : Fin 2) = win0_5.index t (1 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = win0_5.index t (1 : Fin 2)
    ∧ win0_4.index t (0 : Fin 2) = 0
    ∧ win0_4.index t (1 : Fin 2) = win0_5.index t (1 : Fin 2)
    ∧ win0_5.index t (0 : Fin 2) ≤ 31 ∧ win0_5.index t (1 : Fin 2) ≤ 3 :=
  (by decide +kernel : ∀ t : Fin grid0.N, _)

/-- Every output tile is some point's. -/
theorem idx_onto : ∀ (q0 : Fin 32) (q1 : Fin 4), ∃ t : Fin cfg0.N, win0_5.index t = ![q0.val, q1.val] :=
  (by decide +kernel : ∀ (q0 : Fin 32) (q1 : Fin 4), ∃ t : Fin grid0.N, win0_5.index t = ![q0.val, q1.val])

/-- What point `t` writes back is tile `t` of `flat`: the stored tile read at entry (p, q) is the layer's entry of the blocks'
    rows and columns, and each block's entries are the staged array's entries at the tile's offset. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5]
  unfold out0_5
  rw [View.canon_unit_zero hz]
  simp only [View.ld_unit_zero (S := S512x4096) hz, View.ld_unit_zero (S := S1024x4096) hz, View.ld_unit_zero (S := S4096x16) hz,
    View.ld_unit_zero (S := S16x1024) hz, View.ld_unit_zero (S := S1x1024) hz]
  obtain ⟨e0, e1, e2, e3, e4, e5, e6, e7, e8, e9, e10, e11⟩ := idx_facts t
  refine funext fun (j : S512x1024.Idx) => ?_
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (iblk m c 3 t) (iblk m c 4 t) (ix2 p q)
    = flat m c (((cfg0.win 5).blk t).view.emb (ix2 p q))
  refine (Tile.pay_apply (iblk m c 0 t) (iblk m c 1 t) (iblk m c 2 t) (iblk m c 3 t) (iblk m c 4 t) p q).trans ?_
  unfold flat
  have h0 : ∀ k : Fin 4096, iblk m c 0 t (ix2 p k) = xarr m c (ix2 ((((cfg0.win 5).blk t).view.emb (ix2 p q)) 0) k) := fun k => by
    show V m c main_call0_v1 (((cfg0.win 0).blk t).view.emb (ix2 p k)) = V m c main_call0_v1 _
    refine congrArg _ (funext fun a => Fin.ext ?_)
    match a with
    | ⟨0, _⟩ => show win0_0.index t (0 : Fin 2) * 512 + 1 * p.val = win0_5.index t (0 : Fin 2) * 512 + 1 * p.val; omega
    | ⟨1, _⟩ => show win0_0.index t (1 : Fin 2) * 4096 + 1 * k.val = k.val; omega
  have h1 : ∀ k : Fin 4096, iblk m c 1 t (ix2 q k) = warr m c (ix2 ((((cfg0.win 5).blk t).view.emb (ix2 p q)) 1) k) := fun k => by
    show V m c main_call0_v2 (((cfg0.win 1).blk t).view.emb (ix2 q k)) = V m c main_call0_v2 _
    refine congrArg _ (funext fun a => Fin.ext ?_)
    match a with
    | ⟨0, _⟩ => show win0_1.index t (0 : Fin 2) * 1024 + 1 * q.val = win0_5.index t (1 : Fin 2) * 1024 + 1 * q.val; omega
    | ⟨1, _⟩ => show win0_1.index t (1 : Fin 2) * 4096 + 1 * k.val = k.val; omega
  have h2 : ∀ (k : Fin 4096) (r : Fin 16), iblk m c 2 t (ix2 k r) = aarr m c (ix2 k r) := fun k r => by
    show V m c main_call0_v3 (((cfg0.win 2).blk t).view.emb (ix2 k r)) = V m c main_call0_v3 _
    refine congrArg _ (funext fun a => Fin.ext ?_)
    match a with
    | ⟨0, _⟩ => show win0_2.index t (0 : Fin 2) * 4096 + 1 * k.val = k.val; omega
    | ⟨1, _⟩ => show win0_2.index t (1 : Fin 2) * 16 + 1 * r.val = r.val; omega
  have h3 : ∀ r : Fin 16, iblk m c 3 t (ix2 r q) = barr m c (ix2 r ((((cfg0.win 5).blk t).view.emb (ix2 p q)) 1)) := fun r => by
    show V m c main_call0_v4 (((cfg0.win 3).blk t).view.emb (ix2 r q)) = V m c main_call0_v4 _
    refine congrArg _ (funext fun a => Fin.ext ?_)
    match a with
    | ⟨0, _⟩ => show win0_3.index t (0 : Fin 2) * 16 + 1 * r.val = r.val; omega
    | ⟨1, _⟩ => show win0_3.index t (1 : Fin 2) * 1024 + 1 * q.val = win0_5.index t (1 : Fin 2) * 1024 + 1 * q.val; omega
  have h4 : iblk m c 4 t (ix2 (0 : Fin 1) q) = biasarr m c (ix2 (0 : Fin 1) ((((cfg0.win 5).blk t).view.emb (ix2 p q)) 1)) := by
    show V m c main_call0_v5 (((cfg0.win 4).blk t).view.emb (ix2 (0 : Fin 1) q)) = V m c main_call0_v5 _
    refine congrArg _ (funext fun a => Fin.ext ?_)
    match a with
    | ⟨0, _⟩ => show win0_4.index t (0 : Fin 2) * 1 + 1 * 0 = 0; omega
    | ⟨1, _⟩ => show win0_4.index t (1 : Fin 2) * 1024 + 1 * q.val = win0_5.index t (1 : Fin 2) * 1024 + 1 * q.val; omega
  exact congr (congr (congr (congr (congrArg Cert.LoraSpec.entry (funext h0)) (funext h1)) h4)
    (funext fun k => funext fun r => h2 k r)) (funext h3)

/-- An index of the output array lies in point `t`'s block iff each coordinate lies in the block's range on its axis. -/
theorem mem_blk (t : Fin cfg0.N) (i : S16384x4096.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_call0_v6).slice (win0_5.rect t)).set ↔ _
  rw [View.set_slice_whole, Rect.mem_set_unit]
  exact Iff.rfl

/-- Every index of the output array lies in some point's block: the point whose block indices are the quotients of the
    index's coordinates by the tile extents. -/
theorem cover (i : S16384x4096.Idx) : ∃ t : Fin cfg0.N, (cfg0.win 5).flush t = true ∧ i ∈ ((cfg0.win 5).blk t).view.set := by
  have hi0 : (i 0).val < 16384 := (i 0).isLt
  have hi1 : (i 1).val < 4096 := (i 1).isLt
  obtain ⟨t, ht⟩ := idx_onto ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The output array after the region. -/
theorem final (c : Dev nD) : (dats m 0 c).arrAt 5 cfg0.N = flat m c :=
  (dats m 0 c).arrAt_eq_of_cover 5 (flat m c) (fun t _ => flushed_eq m c t) cover

/-! ## The host line after the region, and the result -/

/-- The line after the region reshapes the region's output array to three axes. -/
theorem tail_raw (c : Dev nD) : Pipeline.afterTail₀ cfgs (dats m) 0 (V0 m) [hostOps1] c main_v0
    = fun i => shapeCast S8x2048x4096 (Pipeline.withArrays spec0 c (V0 m c) (fun w => (dats m 0 c).arrAt w cfg0.N)
        (Proc.devRef .tc main_call0_v6)) shapeCasts_S16384x4096_S8x2048x4096 i := by
  unfold Pipeline.afterTail₀
  show StableHlo.after hostOps1 _ (Proc.devRef .tc main_v0) = _
  after_results
  rfl

/-- So the program's result is `flat` reshaped. -/
theorem tail_eq (c : Dev nD) : Pipeline.afterTail₀ cfgs (dats m) 0 (V0 m) [hostOps1] c main_v0
    = fun i => shapeCast S8x2048x4096 (flat m c) shapeCasts_S16384x4096_S8x2048x4096 i := by
  rw [tail_raw]
  have hw : Pipeline.withArrays spec0 c (V0 m c) (fun w => (dats m 0 c).arrAt w cfg0.N) (Proc.devRef .tc main_call0_v6) = flat m c :=
    (Pipeline.withArrays_arr spec0 launch0.win.arr_inj c _ _ 5).trans (final m c)
  rw [hw]

/-- `flat` reshaped to three axes is the layer's function of the arguments: entry (n, s, o) sits at row-major position
    (n · 2048 + s) · 4096 + o in both layouts, row n · 2048 + s of the flattened activation is row (n, s) of the activation,
    and entry (0, o) of the bias row is entry o of the bias. -/
theorem flat_cast (c : Dev nD) :
    (fun i => shapeCast S8x2048x4096 (flat m c) shapeCasts_S16384x4096_S8x2048x4096 i)
      = Cert.LoraSpec.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  have hi0 : (i 0).val < 8 := (i 0).isLt
  have hi1 : (i 1).val < 2048 := (i 1).isLt
  have hr : (i 0).val * 2048 + (i 1).val < 16384 := by omega
  rw [shapeCast_apply (flat m c) shapeCasts_S16384x4096_S8x2048x4096 i (ix2 ⟨(i 0).val * 2048 + (i 1).val, hr⟩ (i 2)) (by
    rw [Shape.rowMajor_val_two, Shape.rowMajor_val_three]; rfl)]
  unfold flat Cert.LoraSpec.out
  refine congr (congr (congr (congr (congrArg Cert.LoraSpec.entry (funext fun k => ?_)) (funext fun k => ?_)) ?_)
    (funext fun k => funext fun r => ?_)) (funext fun r => ?_)
  · exact (congrFun (xarr_eq m c) _).trans (shapeCast_apply _ shapeCasts_S8x2048x4096_S16384x4096 _ (ix3 (i 0) (i 1) k) (by
      rw [Shape.rowMajor_val_two, Shape.rowMajor_val_three]; rfl))
  · exact congrFun (warr_eq m c) _
  · exact (congrFun (biasarr_eq m c) _).trans (shapeCast_apply _ shapeCasts_S4096_S1x4096 _ (ix1 (i 2)) (by
      rw [Shape.rowMajor_val_two, Shape.rowMajor_val_one]; show (i 2).val = 0 * 4096 + (i 2).val; omega))
  · exact congrFun (aarr_eq m c) _
  · exact congrFun (barr_eq m c) _

/-- The kernel program's run: its result array ends at the layer's function of the arguments, which are unchanged. -/
theorem run : θ_run defs (onTc (τ := τ) (main (F := Ideal))) ⟨m, fun _ => 0, ρ⟩ fun r => ∀ c : Dev nD,
      r.2.mem ((c.tc : Thread nD τ).loc main_v0)
        = Cert.LoraSpec.out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(((h c).2 main_v0 (Pipeline.mem_restRefs_of main_v0 (by decide) (by decide))).trans (tail_eq m c)).trans (flat_cast m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.WholeValue

end
-- ==== Proof.RefValue.lean ====
/-
  The reference program's result is the layer's function of the arguments.

  The reference forms the base product by contracting the activation's last axis against the weight's second axis, adds the
  bias broadcast along the last axis, forms the low-rank branch by two successive products through the rank-16 axis, scales
  it by 16 and adds. Read at entry (n, s, o), operation by operation, this is `LoraSpec.out` at that entry in the same
  grouping; what remains is that the operand indices the products and broadcasts read are the coordinates named there.
-/
import proofs.«164390_j14491219657132_1_alg».proof.Proof.Gen.ReferenceIdeal.Read
import proofs.«164390_j14491219657132_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The base product reads the activation at (n, s, k) -/
theorem base_lhs (i : S8x2048x4096.Idx) (k : Fin 4096) : lidx_main_v0 i k = ix3 (i 0) (i 1) k :=
  funext fun a => match a with | ⟨0, _⟩ => rfl | ⟨1, _⟩ => rfl | ⟨2, _⟩ => rfl
/-- and the weight at (o, k). -/
theorem base_rhs (i : S8x2048x4096.Idx) (k : Fin 4096) : ridx_main_v0 i k = ix2 (i 2) k :=
  funext fun a => match a with | ⟨0, _⟩ => rfl | ⟨1, _⟩ => rfl
/-- The bias is read at o. -/
theorem bias_idx (i : S8x2048x4096.Idx) : idx_main_v1 (idx_main_v2 i) = ix1 (i 2) :=
  funext fun a => match a with | ⟨0, _⟩ => rfl
/-- The down-projection reads the activation at (n, s, k) -/
theorem down_lhs (i : S8x2048x4096.Idx) (r : Fin 16) (k : Fin 4096) : lidx_main_v4 (lidx_main_v5 i r) k = ix3 (i 0) (i 1) k :=
  funext fun a => match a with | ⟨0, _⟩ => rfl | ⟨1, _⟩ => rfl | ⟨2, _⟩ => rfl
/-- and the factor A at (k, r). -/
theorem down_rhs (i : S8x2048x4096.Idx) (r : Fin 16) (k : Fin 4096) : ridx_main_v4 (lidx_main_v5 i r) k = ix2 k r :=
  funext fun a => match a with | ⟨0, _⟩ => rfl | ⟨1, _⟩ => rfl
/-- The up-projection reads the factor B at (r, o). -/
theorem up_rhs (i : S8x2048x4096.Idx) (r : Fin 16) : ridx_main_v5 i r = ix2 r (i 2) :=
  funext fun a => match a with | ⟨0, _⟩ => rfl | ⟨1, _⟩ => rfl

/-- The reference's result, as staged operation by operation, is `LoraSpec.out` of the arguments. -/
theorem ref_eq (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) :
    val_main_v8 (F := Ideal) x0 x1 x2 x3 x4 = Cert.LoraSpec.out x0 x1 x2 x3 x4 := by
  funext i
  rw [val_main_v8_apply, val_main_v3_apply, val_main_v7_apply, val_main_v0_apply, val_main_v2_apply, val_main_v1_apply,
    val_main_v6_apply, val_main_cst_apply, val_main_v5_apply]
  simp only [val_main_v4_apply, base_lhs, base_rhs, bias_idx, down_lhs, down_rhs, up_rhs, Ideal.addf_def, Ideal.mulf_def]
  rfl

end Cert.ReferenceIdeal.RefValue

end
-- ==== Proof.lean ====
/-
  A linear layer with a rank-16 additive adapter, tiled, against its plain formula.

  Both programs compute, for an activation x [8, 2048, 4096], a weight W [4096, 4096], a bias b [4096] and the low-rank factors
  A [4096, 16] and B [16, 4096],

      out(n, s, o) = (Σ_k x(n, s, k) · W(o, k) + b(o)) + 16 · Σ_r (Σ_k x(n, s, k) · A(k, r)) · B(r, o).

  The kernel program flattens the activation to 16384 rows, and a 4 × 32 grid of points each computes one 512 × 1024 tile of
  the flattened result from 512 activation rows, 1024 weight rows, the whole factor A, 1024 columns of B and 1024 bias
  entries; the tiles partition the flattened result, which is reshaped back to three axes. The reference forms the same
  entries with whole-array products. At the ideal values the format changes of the kernel's operands are the identity and
  every product into a zero accumulator is the plain sum over the contracted axis, so the two programs agree entry by entry
  with the sums grouped identically: no law of the extended reals is used, and the finiteness of the inputs is never opened.

  `Spec.lean` states the function; `Payload.lean` reads one stored tile at an entry; `KernelValue.lean` assembles the tiles
  into the flattened array, undoes the two reshapes, and re-states the kernel program's run; `RefValue.lean` reads the
  reference's staged operations at an entry. The three frame claims are the programs' runs with the result dropped; nothing
  was rewritten by the idealization, so the preservation claim is trivial.
-/
import proofs.«164390_j14491219657132_1_alg».proof.Defs
import proofs.«164390_j14491219657132_1_alg».proof.Proof.Gen.Kernel
import proofs.«164390_j14491219657132_1_alg».proof.Proof.Gen.Kernel.Skeleton
import proofs.«164390_j14491219657132_1_alg».proof.Proof.Gen.Kernel.Launch
import proofs.«164390_j14491219657132_1_alg».proof.Proof.Gen.Kernel.Points
import proofs.«164390_j14491219657132_1_alg».proof.Proof.Gen.Kernel.Frame
import proofs.«164390_j14491219657132_1_alg».proof.Proof.Gen.KernelIdeal
import proofs.«164390_j14491219657132_1_alg».proof.Proof.Gen.KernelIdeal.Skeleton
import proofs.«164390_j14491219657132_1_alg».proof.Proof.Gen.KernelIdeal.Launch
import proofs.«164390_j14491219657132_1_alg».proof.Proof.Gen.KernelIdeal.Points
import proofs.«164390_j14491219657132_1_alg».proof.Proof.Gen.KernelIdeal.Frame
import proofs.«164390_j14491219657132_1_alg».proof.Proof.Gen.ReferenceIdeal
import proofs.«164390_j14491219657132_1_alg».proof.Proof.Gen.Pre_finite_inputs
import proofs.«164390_j14491219657132_1_alg».proof.Proof.Gen.ReferenceIdeal.Run
import proofs.«164390_j14491219657132_1_alg».proof.Proof.Gen.ReferenceIdeal.Read
import proofs.«164390_j14491219657132_1_alg».proof.Proof.KernelValue
import proofs.«164390_j14491219657132_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the layer's function of those arguments in their
    result arrays: the kernel program by its tiles (`WholeValue.run`), the reference by its staged operations (`ref_eq`). -/
theorem algebraic : Cert.algebraic_KernelIdeal_ReferenceIdeal := by
  intro m ρ m' ρ' _ hagree
  refine ⟨_, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
